-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128x128 .f32) (main_arg11 : FVec F S128x128 .f32) (main_arg12 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_v33

def fn {F : FTy → Type} [FloatOps F] (main_arg0 : FVec F S50000x128 .f32) (main_arg1 : IVec S640000 32) (main_arg2 : IVec S640000 32) (main_arg3 : IVec S640000 32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_v13 main_v16
-- ==== Kernel.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 127
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000, .i32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .f32⟩
  | .hbm, ⟨23, _⟩ => ⟨S50000x128, .f32⟩
  | .hbm, ⟨24, _⟩ => ⟨S640000x1, .i32⟩
  | .hbm, ⟨25, _⟩ => ⟨S50000x128, .f32⟩
  | .hbm, ⟨26, _⟩ => ⟨S_, .f32⟩
  | .hbm, ⟨27, _⟩ => ⟨S640000, .f32⟩
  | .hbm, ⟨28, _⟩ => ⟨S_, .f32⟩
  | .hbm, ⟨29, _⟩ => ⟨S50000, .f32⟩
  | .hbm, ⟨30, _⟩ => ⟨S640000x1, .i32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .i1⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S_, .f32⟩
  | .hbm, ⟨44, _⟩ => ⟨S50000x128, .i1⟩
  | .hbm, ⟨45, _⟩ => ⟨S50000x128, .f32⟩
  | .hbm, ⟨46, _⟩ => ⟨S50000x128, .f32⟩
  | .hbm, ⟨47, _⟩ => ⟨S128x128, .bf16⟩
  | .hbm, ⟨48, _⟩ => ⟨S128x128, .bf16⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x128, .f32⟩
  | .hbm, ⟨60, _⟩ => ⟨S_, .f32⟩
  | .hbm, ⟨61, _⟩ => ⟨S50000x128, .f32⟩
  | .hbm, ⟨62, _⟩ => ⟨S640000x1, .i32⟩
  | .hbm, ⟨63, _⟩ => ⟨S50000x128, .f32⟩
  | .hbm, ⟨64, _⟩ => ⟨S_, .f32⟩
  | .hbm, ⟨65, _⟩ => ⟨S640000, .f32⟩
  | .hbm, ⟨66, _⟩ => ⟨S_, .f32⟩
  | .hbm, ⟨67, _⟩ => ⟨S50000, .f32⟩
  | .hbm, ⟨68, _⟩ => ⟨S640000x1, .i32⟩
  | .hbm, ⟨69, _⟩ => ⟨S50000, .f32⟩
  | .hbm, ⟨70, _⟩ => ⟨S50000x1, .f32⟩
  | .hbm, ⟨71, _⟩ => ⟨S_, .f32⟩
  | .hbm, ⟨72, _⟩ => ⟨S50000x1, .f32⟩
  | .hbm, ⟨73, _⟩ => ⟨S50000x1, .i1⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S_, .f32⟩
  | .hbm, ⟨82, _⟩ => ⟨S50000x128, .i1⟩
  | .hbm, ⟨83, _⟩ => ⟨S50000x128, .f32⟩
  | .hbm, ⟨84, _⟩ => ⟨S50000x128, .f32⟩
  | .hbm, ⟨85, _⟩ => ⟨S128x128, .bf16⟩
  | .hbm, ⟨86, _⟩ => ⟨S128x128, .bf16⟩
  | .hbm, ⟨87, _⟩ => ⟨S1x128, .f32⟩
  | .hbm, ⟨88, _⟩ => ⟨S50000x128, .f32⟩
  | .hbm, ⟨89, _⟩ => ⟨S_, .i32⟩
  | .hbm, ⟨90, _⟩ => ⟨S640000, .i32⟩
  | .hbm, ⟨91, _⟩ => ⟨S640000, .i1⟩
  | .hbm, ⟨92, _⟩ => ⟨S_, .i32⟩
  | .hbm, ⟨93, _⟩ => ⟨S640000, .i32⟩
  | .hbm, ⟨94, _⟩ => ⟨S640000, .i32⟩
  | .hbm, ⟨95, _⟩ => ⟨S640000, .i32⟩
  | .hbm, ⟨96, _⟩ => ⟨S640000x1, .i32⟩
  | .hbm, ⟨97, _⟩ => ⟨S640000x128, .f32⟩
  | .hbm, ⟨98, _⟩ => ⟨S_, .f32⟩
  | .hbm, ⟨99, _⟩ => ⟨S50000x128, .f32⟩
  | .hbm, ⟨100, _⟩ => ⟨S640000x1, .i32⟩
  | .hbm, ⟨101, _⟩ => ⟨S50000x128, .f32⟩
  | .hbm, ⟨102, _⟩ => ⟨S_, .f32⟩
  | .hbm, ⟨103, _⟩ => ⟨S640000, .f32⟩
  | .hbm, ⟨104, _⟩ => ⟨S_, .f32⟩
  | .hbm, ⟨105, _⟩ => ⟨S50000, .f32⟩
  | .hbm, ⟨106, _⟩ => ⟨S640000x1, .i32⟩
  | .hbm, ⟨107, _⟩ => ⟨S50000, .f32⟩
  | .hbm, ⟨108, _⟩ => ⟨S50000x1, .f32⟩
  | .hbm, ⟨109, _⟩ => ⟨S_, .f32⟩
  | .hbm, ⟨110, _⟩ => ⟨S50000x1, .f32⟩
  | .hbm, ⟨111, _⟩ => ⟨S50000x1, .i1⟩
  | .hbm, ⟨112, _⟩ => ⟨S_, .f32⟩
  | .hbm, ⟨113, _⟩ => ⟨S50000, .f32⟩
  | .hbm, ⟨114, _⟩ => ⟨S50000, .f32⟩
  | .hbm, ⟨115, _⟩ => ⟨S50000x1, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S_, .f32⟩
  | .hbm, ⟨120, _⟩ => ⟨S50000x128, .i1⟩
  | .hbm, ⟨121, _⟩ => ⟨S50000x128, .f32⟩
  | .hbm, ⟨122, _⟩ => ⟨S50000x128, .f32⟩
  | .hbm, ⟨123, _⟩ => ⟨S128x128, .bf16⟩
  | .hbm, ⟨124, _⟩ => ⟨S128x128, .bf16⟩
  | .hbm, ⟨125, _⟩ => ⟨S1x128, .f32⟩
  | .hbm, ⟨126, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .bf16⟩
  | .local _ .vmem, ⟨23, _⟩ => ⟨S128x128, .bf16⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_cst_10 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_11 : Ref sig .tc := ⟨.hbm, 71, rfl⟩
abbrev main_v42 : Ref sig .tc := ⟨.hbm, 72, rfl⟩
abbrev main_v43 : Ref sig .tc := ⟨.hbm, 73, rfl⟩
abbrev main_cst_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_13 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_14 : Ref sig .tc := ⟨.hbm, 89, rfl⟩
abbrev main_v54 : Ref sig .tc := ⟨.hbm, 90, rfl⟩
abbrev main_v55 : Ref sig .tc := ⟨.hbm, 91, rfl⟩
abbrev main_c_15 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_16 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_17 : Ref sig .tc := ⟨.hbm, 102, rfl⟩
abbrev main_v64 : Ref sig .tc := ⟨.hbm, 103, rfl⟩
abbrev main_cst_18 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_19 : Ref sig .tc := ⟨.hbm, 109, rfl⟩
abbrev main_v69 : Ref sig .tc := ⟨.hbm, 110, rfl⟩
abbrev main_v70 : Ref sig .tc := ⟨.hbm, 111, rfl⟩
abbrev main_cst_20 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_21 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S640000, .i32⟩
  | 2 => ⟨S640000, .i32⟩
  | 3 => ⟨S640000, .i32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000x128, .f32⟩
  | 22 => ⟨S_, .f32⟩
  | 23 => ⟨S50000x128, .f32⟩
  | 24 => ⟨S640000x1, .i32⟩
  | 25 => ⟨S50000x128, .f32⟩
  | 26 => ⟨S_, .f32⟩
  | 27 => ⟨S640000, .f32⟩
  | 28 => ⟨S_, .f32⟩
  | 29 => ⟨S50000, .f32⟩
  | 30 => ⟨S640000x1, .i32⟩
  | 31 => ⟨S50000, .f32⟩
  | 32 => ⟨S50000x1, .f32⟩
  | 33 => ⟨S_, .f32⟩
  | 34 => ⟨S50000x1, .f32⟩
  | 35 => ⟨S50000x1, .i1⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S_, .f32⟩
  | 43 => ⟨S_, .f32⟩
  | 44 => ⟨S50000x128, .i1⟩
  | 45 => ⟨S50000x128, .f32⟩
  | 46 => ⟨S50000x128, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S50000x128, .f32⟩
  | 57 => ⟨S_, .i32⟩
  | 58 => ⟨S640000, .i32⟩
  | 59 => ⟨S640000, .i1⟩
  | 60 => ⟨S_, .i32⟩
  | 61 => ⟨S640000, .i32⟩
  | 62 => ⟨S640000, .i32⟩
  | 63 => ⟨S640000, .i32⟩
  | 64 => ⟨S640000x1, .i32⟩
  | 65 => ⟨S640000x128, .f32⟩
  | 66 => ⟨S_, .f32⟩
  | 67 => ⟨S50000x128, .f32⟩
  | 68 => ⟨S640000x1, .i32⟩
  | 69 => ⟨S50000x128, .f32⟩
  | 70 => ⟨S_, .f32⟩
  | 71 => ⟨S640000, .f32⟩
  | 72 => ⟨S_, .f32⟩
  | 73 => ⟨S50000, .f32⟩
  | 74 => ⟨S640000x1, .i32⟩
  | 75 => ⟨S50000, .f32⟩
  | 76 => ⟨S50000x1, .f32⟩
  | 77 => ⟨S_, .f32⟩
  | 78 => ⟨S50000x1, .f32⟩
  | 79 => ⟨S50000x1, .i1⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S_, .f32⟩
  | 87 => ⟨S_, .f32⟩
  | 88 => ⟨S50000x128, .i1⟩
  | 89 => ⟨S50000x128, .f32⟩
  | 90 => ⟨S50000x128, .f32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .f32⟩
  | 110 => ⟨S_, .f32⟩
  | 111 => ⟨S50000x128, .f32⟩
  | 112 => ⟨S640000x1, .i32⟩
  | 113 => ⟨S50000x128, .f32⟩
  | 114 => ⟨S_, .f32⟩
  | 115 => ⟨S640000, .f32⟩
  | 116 => ⟨S_, .f32⟩
  | 117 => ⟨S50000, .f32⟩
  | 118 => ⟨S640000x1, .i32⟩
  | 119 => ⟨S50000, .f32⟩
  | 120 => ⟨S50000x1, .f32⟩
  | 121 => ⟨S_, .f32⟩
  | 122 => ⟨S50000x1, .f32⟩
  | 123 => ⟨S50000x1, .i1⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S_, .f32⟩
  | 4 => ⟨S50000x128, .i1⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_cst : Ref sig .tc := ⟨.hbm, 53, rfl⟩
abbrev main_call1_v0 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_v47 : Ref sig .tc := ⟨.hbm, 79, rfl⟩
abbrev main_cst_12 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_13 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_call3_cst : Ref sig .tc := ⟨.hbm, 97, rfl⟩
abbrev main_call3_v0 : Ref sig .tc := ⟨.hbm, 98, rfl⟩
abbrev main_v60 : Ref sig .tc := ⟨.hbm, 99, rfl⟩
abbrev main_v61 : Ref sig .tc := ⟨.hbm, 100, rfl⟩
abbrev main_c_14 : Ref sig .tc := ⟨.hbm, 101, rfl⟩
abbrev main_v62 : Ref sig .tc := ⟨.hbm, 102, rfl⟩
abbrev main_v63 : Ref sig .tc := ⟨.hbm, 103, rfl⟩
abbrev main_c_15 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_16 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_17 : Ref sig .tc := ⟨.hbm, 114, rfl⟩
abbrev main_v72 : Ref sig .tc := ⟨.hbm, 115, rfl⟩
abbrev main_cst_18 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_19 : Ref sig .tc := ⟨.hbm, 121, rfl⟩
abbrev main_v77 : Ref sig .tc := ⟨.hbm, 122, rfl⟩
abbrev main_v78 : Ref sig .tc := ⟨.hbm, 123, rfl⟩
abbrev main_cst_20 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_21 : Ref sig .tc := ⟨.hbm, 130, rfl⟩
abbrev main_call4_v0 : Ref sig .tc := ⟨.hbm, 131, rfl⟩
abbrev main_call4_v1 : Ref sig .tc := ⟨.hbm, 132, rfl⟩
abbrev main_call4_v2 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_call5_cst : Ref sig .tc := ⟨.hbm, 141, rfl⟩
abbrev main_call5_v0 : Ref sig .tc := ⟨.hbm, 142, rfl⟩
abbrev main_v91 : Ref sig .tc := ⟨.hbm, 143, rfl⟩
abbrev main_v92 : Ref sig .tc := ⟨.hbm, 144, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Spec.lean ====
/-
  One graph-convolution layer of mean-aggregation type, entry by entry, on the extended reals, and the three-layer network built from it.

  The dense stage of a layer takes the node features x (50000 rows of 128), the aggregated neighbour features hn of the same
  extents, two 128 x 128 weight matrices and a bias row, and gives at entry (p, q)

      max ((sum over k of x (p, k) * ws (k, q)) + (sum over k of hn (p, k) * wn (k, q)) + b q, 0) + x (p, q):

  the rectified sum of the two matrix products and the bias, plus the residual x. The aggregation that produces hn from x (a gather
  along the edges, a segment sum over the destinations, a division by the clamped degree) is the same chain of operations for the
  two programs compared, so it enters here only as a function A from feature arrays to feature arrays. The network applies the
  layer three times, each layer to the previous layer's result and to A of it.
-/
import Idealize.ShloMosaic.PureOps.Ideal.Laws
import Idealize.ShloMosaic.Lib.ValueIdx

noncomputable section

open scoped BigOperators
open Idealize.ShloMosaic Idealize.ShloMosaic.ValueIdx

namespace Cert.Sage

/-- The node features' extents, the weights', the bias vector's and the bias row's. -/
abbrev Nodes : Shape := ⟨2, ![50000, 128]⟩
abbrev Wts : Shape := ⟨2, ![128, 128]⟩
abbrev Bias : Shape := ⟨1, ![128]⟩
abbrev BiasRow : Shape := ⟨2, ![1, 128]⟩

/-- Entry (p, q) of the dense stage over R rows: relu (x ws + hn wn + b) + x, the bias given as a vector. -/
def denseAt {R : Nat} (x hn : (⟨2, ![R, 128]⟩ : Shape).Idx → EReal) (ws wn : Wts.Idx → EReal) (b : Bias.Idx → EReal)
    (p : Fin R) (q : Fin 128) : EReal :=
  max ((∑ k : Fin 128, x (ix2 p k) * ws (ix2 k q)) + (∑ k : Fin 128, hn (ix2 p k) * wn (ix2 k q)) + b (ix1 q)) 0 + x (ix2 p q)

/-- The same with the bias given as a one-row matrix. -/
def denseRowAt {R : Nat} (x hn : (⟨2, ![R, 128]⟩ : Shape).Idx → EReal) (ws wn : Wts.Idx → EReal) (b : BiasRow.Idx → EReal)
    (p : Fin R) (q : Fin 128) : EReal :=
  max ((∑ k : Fin 128, x (ix2 p k) * ws (ix2 k q)) + (∑ k : Fin 128, hn (ix2 p k) * wn (ix2 k q)) + b (ix2 (0 : Fin 1) q)) 0
    + x (ix2 p q)

/-- The dense stage as an array over the nodes. -/
def dense (x hn : Nodes.Idx → EReal) (ws wn : Wts.Idx → EReal) (b : Bias.Idx → EReal) : Nodes.Idx → EReal :=
  fun i => denseAt x hn ws wn b ⟨(i 0).val, idx2_lt0 i⟩ ⟨(i 1).val, idx2_lt1 i⟩

/-- The dense stage with a bias row, as an array over the nodes. -/
def denseRow (x hn : Nodes.Idx → EReal) (ws wn : Wts.Idx → EReal) (b : BiasRow.Idx → EReal) : Nodes.Idx → EReal :=
  fun i => denseRowAt x hn ws wn b ⟨(i 0).val, idx2_lt0 i⟩ ⟨(i 1).val, idx2_lt1 i⟩

theorem dense_ix2 (x hn : Nodes.Idx → EReal) (ws wn : Wts.Idx → EReal) (b : Bias.Idx → EReal) (p : Fin 50000) (q : Fin 128) :
    dense x hn ws wn b (ix2 p q) = denseAt x hn ws wn b p q := rfl

theorem denseRow_ix2 (x hn : Nodes.Idx → EReal) (ws wn : Wts.Idx → EReal) (b : BiasRow.Idx → EReal) (p : Fin 50000)
    (q : Fin 128) : denseRow x hn ws wn b (ix2 p q) = denseRowAt x hn ws wn b p q := rfl

/-- A bias row whose entry (0, q) is the vector's entry q gives the same layer. -/
theorem denseRow_eq_dense (x hn : Nodes.Idx → EReal) (ws wn : Wts.Idx → EReal) (b : Bias.Idx → EReal) (b' : BiasRow.Idx → EReal)
    (hb : ∀ q : Fin 128, b' (ix2 (0 : Fin 1) q) = b (ix1 q)) : denseRow x hn ws wn b' = dense x hn ws wn b := by
  funext i
  unfold denseRow dense denseRowAt denseAt
  rw [hb]

/-- Three layers, each on the layer before and on the aggregation `A` of it. -/
def net (A : (Nodes.Idx → EReal) → Nodes.Idx → EReal) (x : Nodes.Idx → EReal)
    (ws1 wn1 : Wts.Idx → EReal) (b1 : Bias.Idx → EReal) (ws2 wn2 : Wts.Idx → EReal) (b2 : Bias.Idx → EReal)
    (ws3 wn3 : Wts.Idx → EReal) (b3 : Bias.Idx → EReal) : Nodes.Idx → EReal :=
  let h1 := dense x (A x) ws1 wn1 b1
  let h2 := dense h1 (A h1) ws2 wn2 b2
  dense h2 (A h2) ws3 wn3 b3

end Cert.Sage

end
-- ==== Proof.Payload.lean ====
/-
  What the combine kernel's body stores, read at one entry of its block.

  The body loads a block of 5000 rows of the node features x and of the aggregated features hn, the two 128 x 128 weight matrices
  (narrowed to bfloat16 on the way in, which on the extended reals changes nothing) and the bias row, forms the two matrix products
  into zero accumulators, adds them, adds the bias row spread down the rows, takes the maximum with 0 and adds x. At entry (p, q) of
  the block that is the dense stage's entry: the products are the sums over the contraction coordinate, the bias row is read at
  (0, q), and the casts to the same shape and the format changes are the identity. The three launches' bodies are this same
  expression (the first reads x once before its cast to its own shape, the other two after it).
-/
import proofs.«179523_j83038897701149_1_alg».proof.Proof.Gen.KernelIdeal.Skeleton
import proofs.«179523_j83038897701149_1_alg».proof.Proof.LibPlainMatmul
import proofs.«179523_j83038897701149_1_alg».proof.Proof.Spec
import Idealize.ShloMosaic.Lib.ValueIdx
import Idealize.ShloMosaic.Lib.Pipeline.Value
import Idealize.ShloMosaic.PureOps.Ideal.Laws

noncomputable section

open scoped BigOperators

namespace Cert.Sage

open Idealize.ShloMosaic Idealize.ShloMosaic.ValueIdx

/-- The dense stage's entry depends on row p of x and of hn, on column q of the two weight matrices and on entry q of the bias
    row, and on nothing else: two sets of operands that agree there (row p of one against row p' of the other) give the same
    entry. -/
theorem denseRowAt_congr {R R' : Nat} (x hn : (⟨2, ![R, 128]⟩ : Shape).Idx → EReal) (x' hn' : (⟨2, ![R', 128]⟩ : Shape).Idx → EReal)
    (ws wn ws' wn' : Wts.Idx → EReal) (b b' : BiasRow.Idx → EReal) (p : Fin R) (p' : Fin R') (q : Fin 128)
    (hx : ∀ k : Fin 128, x (ix2 p k) = x' (ix2 p' k)) (hh : ∀ k : Fin 128, hn (ix2 p k) = hn' (ix2 p' k))
    (hws : ∀ k : Fin 128, ws (ix2 k q) = ws' (ix2 k q)) (hwn : ∀ k : Fin 128, wn (ix2 k q) = wn' (ix2 k q))
    (hb : b (ix2 (0 : Fin 1) q) = b' (ix2 (0 : Fin 1) q)) :
    denseRowAt x hn ws wn b p q = denseRowAt x' hn' ws' wn' b' p' q := by
  unfold denseRowAt
  simp only [hx, hh, hws, hwn, hb]

end Cert.Sage

namespace Cert.KernelIdeal.BodyValue

open Cert.KernelIdeal Cert.KernelIdeal.Gen Idealize.ShloMosaic Idealize.ShloMosaic.ValueIdx Cert.Sage

/-- The zero the body rectifies against is the real number 0. -/
theorem zero_word : Scalar.ofBits (F := Ideal) .f32 0x00000000#32 = (0 : EReal) := Ideal.ofBits_zero_f32

/-- The first launch's stored value at entry (p, q) of the block is the dense stage's entry over the loaded blocks. -/
theorem pay0_at (x0 x1 : Vec Ideal S5000x128 .f32) (x2 x3 : Vec Ideal S128x128 .bf16) (x4 : Vec Ideal S1x128 .f32)
    (p : Fin 5000) (q : Fin 128) :
    k0_pay1 (F := Ideal) x0 x1 x2 x3 x4 (ix2 p q) = denseRowAt x0 x1 x2 x3 x4 p q := by
  unfold k0_pay1 denseRowAt
  simp only [shapeCast_self, Idealize.ShloMosaic.matmul]
  rw [addf_apply, maximumf_apply, addf_apply, addf_apply,
    Cert.Lib.PlainMatmul.apply _ rfl rfl rfl rfl rfl rfl, Cert.Lib.PlainMatmul.apply _ rfl rfl rfl rfl rfl rfl,
    Cert.Lib.PlainMatmul.rowSpread_apply, broadcast_apply, zero_word]
  rfl

/-- The second launch's stored value at entry (p, q) of the block. -/
theorem pay1_at (x0 x1 : Vec Ideal S5000x128 .f32) (x2 x3 : Vec Ideal S128x128 .bf16) (x4 : Vec Ideal S1x128 .f32)
    (p : Fin 5000) (q : Fin 128) :
    k1_pay1 (F := Ideal) x0 x1 x2 x3 x4 (ix2 p q) = denseRowAt x0 x1 x2 x3 x4 p q := by
  unfold k1_pay1 denseRowAt
  simp only [shapeCast_self, Idealize.ShloMosaic.matmul]
  rw [addf_apply, maximumf_apply, addf_apply, addf_apply,
    Cert.Lib.PlainMatmul.apply _ rfl rfl rfl rfl rfl rfl, Cert.Lib.PlainMatmul.apply _ rfl rfl rfl rfl rfl rfl,
    Cert.Lib.PlainMatmul.rowSpread_apply, broadcast_apply, zero_word]
  rfl

/-- The third launch's stored value at entry (p, q) of the block. -/
theorem pay2_at (x0 x1 : Vec Ideal S5000x128 .f32) (x2 x3 : Vec Ideal S128x128 .bf16) (x4 : Vec Ideal S1x128 .f32)
    (p : Fin 5000) (q : Fin 128) :
    k2_pay1 (F := Ideal) x0 x1 x2 x3 x4 (ix2 p q) = denseRowAt x0 x1 x2 x3 x4 p q := by
  unfold k2_pay1 denseRowAt
  simp only [shapeCast_self, Idealize.ShloMosaic.matmul]
  rw [addf_apply, maximumf_apply, addf_apply, addf_apply,
    Cert.Lib.PlainMatmul.apply _ rfl rfl rfl rfl rfl rfl, Cert.Lib.PlainMatmul.apply _ rfl rfl rfl rfl rfl rfl,
    Cert.Lib.PlainMatmul.rowSpread_apply, broadcast_apply, zero_word]
  rfl

end Cert.KernelIdeal.BodyValue

end
-- ==== Proof.Region0.lean ====
/-
  The first launch's result array, as one function of the arrays the launch finds.

  The launch runs the combine body at ten grid points. Point t stages rows 5000 t … 5000 t + 4999 of the node features and of the
  aggregated features, the two weight matrices and the bias row whole, and writes rows 5000 t … 5000 t + 4999 of the result. Entry
  (p, q) of what point t writes back is the dense stage's entry (5000 t + p, q) over the whole arrays, because that entry reads
  only row 5000 t + p of the two feature arrays. The ten row blocks tile the result, so after the launch the result array is the
  dense stage of the arrays as the launch found them.
-/
import proofs.«179523_j83038897701149_1_alg».proof.Proof.Gen.KernelIdeal.Frame
import proofs.«179523_j83038897701149_1_alg».proof.Proof.Payload
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Sage
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two feature windows and the result window sit at the same row block, which is below
    ten, in column block 0; the weights and the bias row sit at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block of the result is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- The result window flushes at every point. -/
theorem flushes : ∀ t : Fin cfg0.N, (cfg0.win 5).flush t = true := (by decide +kernel : ∀ t : Fin grid0.N, _)

/-- The dense stage of the arrays the launch finds. -/
abbrev G (c : Dev nD) : Nodes.Idx → EReal :=
  denseRow (V c (Pipeline.arrRef spec0 0)) (V c (Pipeline.arrRef spec0 1)) (V c (Pipeline.arrRef spec0 2))
    (V c (Pipeline.arrRef spec0 3)) (V c (Pipeline.arrRef spec0 4))

/-- The row of the whole arrays that row p of point t's block is. -/
def row (t : Fin cfg0.N) (p : Fin 5000) : Fin 50000 :=
  ⟨win0_5.index t (0 : Fin 2) * 5000 + p.val, by
    obtain ⟨-, -, -, -, -, -, -, -, -, -, e10, -⟩ := idx_facts t
    have hp : p.val < 5000 := p.isLt
    omega⟩

/-- Entry (p, q) of point t's result block is entry (row t p, q) of the result array. -/
theorem out_emb (t : Fin cfg0.N) (p : Fin 5000) (q : Fin 128) :
    ((cfg0.win 5).blk t).view.emb (ix2 p q) = (ix2 (row t p) q : S50000x128.Idx) := by
  obtain ⟨-, -, -, -, -, -, -, -, -, -, -, e11⟩ := idx_facts t
  have hq : q.val < 128 := q.isLt
  funext a; apply Fin.ext
  match a with
  | ⟨0, _⟩ => show win0_5.index t (0 : Fin 2) * 5000 + 1 * p.val = win0_5.index t (0 : Fin 2) * 5000 + p.val; omega
  | ⟨1, _⟩ => show win0_5.index t (1 : Fin 2) * 128 + 1 * q.val = q.val; omega

/-- Row p of point t's block of the node features is row (row t p) of the array. -/
theorem read_x (c : Dev nD) (t : Fin cfg0.N) (p : Fin 5000) (k : Fin 128) :
    iblk0 V c 0 t (ix2 p k) = V c (Pipeline.arrRef spec0 0) (ix2 (row t p) k) := by
  obtain ⟨e0, e1, -, -, -, -, -, -, -, -, -, -⟩ := idx_facts t
  have hk : k.val < 128 := k.isLt
  show V c (Pipeline.arrRef spec0 0) (((cfg0.win 0).blk t).view.emb (ix2 p k)) = _
  refine congrArg (V c (Pipeline.arrRef spec0 0)) ?_
  funext a; apply Fin.ext
  match a with
  | ⟨0, _⟩ => show win0_0.index t (0 : Fin 2) * 5000 + 1 * p.val = win0_5.index t (0 : Fin 2) * 5000 + p.val; omega
  | ⟨1, _⟩ => show win0_0.index t (1 : Fin 2) * 128 + 1 * k.val = k.val; omega

/-- Row p of point t's block of the aggregated features is row (row t p) of the array. -/
theorem read_hn (c : Dev nD) (t : Fin cfg0.N) (p : Fin 5000) (k : Fin 128) :
    iblk0 V c 1 t (ix2 p k) = V c (Pipeline.arrRef spec0 1) (ix2 (row t p) k) := by
  obtain ⟨-, -, e2, e3, -, -, -, -, -, -, -, -⟩ := idx_facts t
  have hk : k.val < 128 := k.isLt
  show V c (Pipeline.arrRef spec0 1) (((cfg0.win 1).blk t).view.emb (ix2 p k)) = _
  refine congrArg (V c (Pipeline.arrRef spec0 1)) ?_
  funext a; apply Fin.ext
  match a with
  | ⟨0, _⟩ => show win0_1.index t (0 : Fin 2) * 5000 + 1 * p.val = win0_5.index t (0 : Fin 2) * 5000 + p.val; omega
  | ⟨1, _⟩ => show win0_1.index t (1 : Fin 2) * 128 + 1 * k.val = k.val; omega

/-- Every point stages the self weights whole. -/
theorem read_ws (c : Dev nD) (t : Fin cfg0.N) (q k : Fin 128) :
    iblk0 V c 2 t (ix2 k q) = V c (Pipeline.arrRef spec0 2) (ix2 k q) := by
  obtain ⟨-, -, -, -, e4, e5, -, -, -, -, -, -⟩ := idx_facts t
  have hk : k.val < 128 := k.isLt
  have hq : q.val < 128 := q.isLt
  show V c (Pipeline.arrRef spec0 2) (((cfg0.win 2).blk t).view.emb (ix2 k q)) = _
  refine congrArg (V c (Pipeline.arrRef spec0 2)) ?_
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- Every point stages the neighbour weights whole. -/
theorem read_wn (c : Dev nD) (t : Fin cfg0.N) (q k : Fin 128) :
    iblk0 V c 3 t (ix2 k q) = V c (Pipeline.arrRef spec0 3) (ix2 k q) := by
  obtain ⟨-, -, -, -, -, -, e6, e7, -, -, -, -⟩ := idx_facts t
  have hk : k.val < 128 := k.isLt
  have hq : q.val < 128 := q.isLt
  show V c (Pipeline.arrRef spec0 3) (((cfg0.win 3).blk t).view.emb (ix2 k q)) = _
  refine congrArg (V c (Pipeline.arrRef spec0 3)) ?_
  funext a; apply Fin.ext
  match a with
  | ⟨0, _⟩ => show win0_3.index t (0 : Fin 2) * 128 + 1 * k.val = k.val; omega
  | ⟨1, _⟩ => show win0_3.index t (1 : Fin 2) * 128 + 1 * q.val = q.val; omega

/-- Every point stages the bias row whole. -/
theorem read_b (c : Dev nD) (t : Fin cfg0.N) (q : Fin 128) :
    iblk0 V c 4 t (ix2 (0 : Fin 1) q) = V c (Pipeline.arrRef spec0 4) (ix2 (0 : Fin 1) q) := by
  obtain ⟨-, -, -, -, -, -, -, -, e8, e9, -, -⟩ := idx_facts t
  have hq : q.val < 128 := q.isLt
  show V c (Pipeline.arrRef spec0 4) (((cfg0.win 4).blk t).view.emb (ix2 (0 : Fin 1) q)) = _
  refine congrArg (V c (Pipeline.arrRef spec0 4)) ?_
  funext a; apply Fin.ext
  match a with
  | ⟨0, _⟩ => show win0_4.index t (0 : Fin 2) * 1 + 1 * 0 = 0; omega
  | ⟨1, _⟩ => show win0_4.index t (1 : Fin 2) * 128 + 1 * q.val = q.val; omega

/-- WHAT POINT t WRITES BACK is block t of the dense stage of the arrays the launch finds. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin,
    View.ld_unit_zero (S := S1x128) origin]
  funext j
  obtain ⟨p, q, rfl⟩ : ∃ (p : Fin 5000) (q : Fin 128), j = ix2 p q := ⟨j 0, j 1, eq_ix2 j⟩
  refine (BodyValue.pay0_at _ _ _ _ _ p q).trans ?_
  show _ = G V c (((cfg0.win 5).blk t).view.emb (ix2 p q))
  rw [out_emb t p q]
  exact denseRowAt_congr _ _ _ _ _ _ _ _ _ _ p (row t p) q (read_x V c t p) (read_hn V c t p) (read_ws V c t q)
    (read_wn V c t q) (read_b V c t q)

/-- An index of the result array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Every index of the result array is in some point's block: the point whose row block holds the index's row. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flushes t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the launch: the dense stage of the arrays as the launch found them. -/
theorem final (c : Dev nD) : (dat0 V c).arrAt 5 cfg0.N = G V c :=
  (dat0 V c).arrAt_eq_of_cover 5 (G V c) (fun t _ => flushed_eq V c t) (cover)

end Cert.KernelIdeal.Region0

end
-- ==== Proof.Region1.lean ====
/-
  The second launch's result array, as one function of the arrays the launch finds.

  The launch runs the combine body at ten grid points. Point t stages rows 5000 t … 5000 t + 4999 of the node features and of the
  aggregated features, the two weight matrices and the bias row whole, and writes rows 5000 t … 5000 t + 4999 of the result. Entry
  (p, q) of what point t writes back is the dense stage's entry (5000 t + p, q) over the whole arrays, because that entry reads
  only row 5000 t + p of the two feature arrays. The ten row blocks tile the result, so after the launch the result array is the
  dense stage of the arrays as the launch found them.
-/
import proofs.«179523_j83038897701149_1_alg».proof.Proof.Gen.KernelIdeal.Frame
import proofs.«179523_j83038897701149_1_alg».proof.Proof.Payload
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Sage
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two feature windows and the result window sit at the same row block, which is below
    ten, in column block 0; the weights and the bias row sit at block (0, 0). -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every row block of the result is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- The result window flushes at every point. -/
theorem flushes : ∀ t : Fin cfg1.N, (cfg1.win 5).flush t = true := (by decide +kernel : ∀ t : Fin grid1.N, _)

/-- The dense stage of the arrays the launch finds. -/
abbrev G (c : Dev nD) : Nodes.Idx → EReal :=
  denseRow (V c (Pipeline.arrRef spec1 0)) (V c (Pipeline.arrRef spec1 1)) (V c (Pipeline.arrRef spec1 2))
    (V c (Pipeline.arrRef spec1 3)) (V c (Pipeline.arrRef spec1 4))

/-- The row of the whole arrays that row p of point t's block is. -/
def row (t : Fin cfg1.N) (p : Fin 5000) : Fin 50000 :=
  ⟨win1_5.index t (0 : Fin 2) * 5000 + p.val, by
    obtain ⟨-, -, -, -, -, -, -, -, -, -, e10, -⟩ := idx_facts t
    have hp : p.val < 5000 := p.isLt
    omega⟩

/-- Entry (p, q) of point t's result block is entry (row t p, q) of the result array. -/
theorem out_emb (t : Fin cfg1.N) (p : Fin 5000) (q : Fin 128) :
    ((cfg1.win 5).blk t).view.emb (ix2 p q) = (ix2 (row t p) q : S50000x128.Idx) := by
  obtain ⟨-, -, -, -, -, -, -, -, -, -, -, e11⟩ := idx_facts t
  have hq : q.val < 128 := q.isLt
  funext a; apply Fin.ext
  match a with
  | ⟨0, _⟩ => show win1_5.index t (0 : Fin 2) * 5000 + 1 * p.val = win1_5.index t (0 : Fin 2) * 5000 + p.val; omega
  | ⟨1, _⟩ => show win1_5.index t (1 : Fin 2) * 128 + 1 * q.val = q.val; omega

/-- Row p of point t's block of the node features is row (row t p) of the array. -/
theorem read_x (c : Dev nD) (t : Fin cfg1.N) (p : Fin 5000) (k : Fin 128) :
    iblk1 V c 0 t (ix2 p k) = V c (Pipeline.arrRef spec1 0) (ix2 (row t p) k) := by
  obtain ⟨e0, e1, -, -, -, -, -, -, -, -, -, -⟩ := idx_facts t
  have hk : k.val < 128 := k.isLt
  show V c (Pipeline.arrRef spec1 0) (((cfg1.win 0).blk t).view.emb (ix2 p k)) = _
  refine congrArg (V c (Pipeline.arrRef spec1 0)) ?_
  funext a; apply Fin.ext
  match a with
  | ⟨0, _⟩ => show win1_0.index t (0 : Fin 2) * 5000 + 1 * p.val = win1_5.index t (0 : Fin 2) * 5000 + p.val; omega
  | ⟨1, _⟩ => show win1_0.index t (1 : Fin 2) * 128 + 1 * k.val = k.val; omega

/-- Row p of point t's block of the aggregated features is row (row t p) of the array. -/
theorem read_hn (c : Dev nD) (t : Fin cfg1.N) (p : Fin 5000) (k : Fin 128) :
    iblk1 V c 1 t (ix2 p k) = V c (Pipeline.arrRef spec1 1) (ix2 (row t p) k) := by
  obtain ⟨-, -, e2, e3, -, -, -, -, -, -, -, -⟩ := idx_facts t
  have hk : k.val < 128 := k.isLt
  show V c (Pipeline.arrRef spec1 1) (((cfg1.win 1).blk t).view.emb (ix2 p k)) = _
  refine congrArg (V c (Pipeline.arrRef spec1 1)) ?_
  funext a; apply Fin.ext
  match a with
  | ⟨0, _⟩ => show win1_1.index t (0 : Fin 2) * 5000 + 1 * p.val = win1_5.index t (0 : Fin 2) * 5000 + p.val; omega
  | ⟨1, _⟩ => show win1_1.index t (1 : Fin 2) * 128 + 1 * k.val = k.val; omega

/-- Every point stages the self weights whole. -/
theorem read_ws (c : Dev nD) (t : Fin cfg1.N) (q k : Fin 128) :
    iblk1 V c 2 t (ix2 k q) = V c (Pipeline.arrRef spec1 2) (ix2 k q) := by
  obtain ⟨-, -, -, -, e4, e5, -, -, -, -, -, -⟩ := idx_facts t
  have hk : k.val < 128 := k.isLt
  have hq : q.val < 128 := q.isLt
  show V c (Pipeline.arrRef spec1 2) (((cfg1.win 2).blk t).view.emb (ix2 k q)) = _
  refine congrArg (V c (Pipeline.arrRef spec1 2)) ?_
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- Every point stages the neighbour weights whole. -/
theorem read_wn (c : Dev nD) (t : Fin cfg1.N) (q k : Fin 128) :
    iblk1 V c 3 t (ix2 k q) = V c (Pipeline.arrRef spec1 3) (ix2 k q) := by
  obtain ⟨-, -, -, -, -, -, e6, e7, -, -, -, -⟩ := idx_facts t
  have hk : k.val < 128 := k.isLt
  have hq : q.val < 128 := q.isLt
  show V c (Pipeline.arrRef spec1 3) (((cfg1.win 3).blk t).view.emb (ix2 k q)) = _
  refine congrArg (V c (Pipeline.arrRef spec1 3)) ?_
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- Every point stages the bias row whole. -/
theorem read_b (c : Dev nD) (t : Fin cfg1.N) (q : Fin 128) :
    iblk1 V c 4 t (ix2 (0 : Fin 1) q) = V c (Pipeline.arrRef spec1 4) (ix2 (0 : Fin 1) q) := by
  obtain ⟨-, -, -, -, -, -, -, -, e8, e9, -, -⟩ := idx_facts t
  have hq : q.val < 128 := q.isLt
  show V c (Pipeline.arrRef spec1 4) (((cfg1.win 4).blk t).view.emb (ix2 (0 : Fin 1) q)) = _
  refine congrArg (V c (Pipeline.arrRef spec1 4)) ?_
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- WHAT POINT t WRITES BACK is block t of the dense stage of the arrays the launch finds. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin,
    View.ld_unit_zero (S := S1x128) origin]
  funext j
  obtain ⟨p, q, rfl⟩ : ∃ (p : Fin 5000) (q : Fin 128), j = ix2 p q := ⟨j 0, j 1, eq_ix2 j⟩
  refine (BodyValue.pay1_at _ _ _ _ _ p q).trans ?_
  show _ = G V c (((cfg1.win 5).blk t).view.emb (ix2 p q))
  rw [out_emb t p q]
  exact denseRowAt_congr _ _ _ _ _ _ _ _ _ _ p (row t p) q (read_x V c t p) (read_hn V c t p) (read_ws V c t q)
    (read_wn V c t q) (read_b V c t q)

/-- An index of the result array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v53).slice (win1_5.rect t)).set ↔ _
  rw [View.set_slice_whole, Rect.mem_set_unit]
  exact Iff.rfl

/-- Every index of the result array is in some point's block: the point whose row block holds the index's row. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flushes t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE RESULT ARRAY after the launch: the dense stage of the arrays as the launch found them. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Region2.lean ====
/-
  The third launch's result array, as one function of the arrays the launch finds.

  The launch runs the combine body at ten grid points. Point t stages rows 5000 t … 5000 t + 4999 of the node features and of the
  aggregated features, the two weight matrices and the bias row whole, and writes rows 5000 t … 5000 t + 4999 of the result. Entry
  (p, q) of what point t writes back is the dense stage's entry (5000 t + p, q) over the whole arrays, because that entry reads
  only row 5000 t + p of the two feature arrays. The ten row blocks tile the result, so after the launch the result array is the
  dense stage of the arrays as the launch found them.
-/
import proofs.«179523_j83038897701149_1_alg».proof.Proof.Gen.KernelIdeal.Frame
import proofs.«179523_j83038897701149_1_alg».proof.Proof.Payload
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Sage
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two feature windows and the result window sit at the same row block, which is below
    ten, in column block 0; the weights and the bias row sit at block (0, 0). -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every row block of the result is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- The result window flushes at every point. -/
theorem flushes : ∀ t : Fin cfg2.N, (cfg2.win 5).flush t = true := (by decide +kernel : ∀ t : Fin grid2.N, _)

/-- The dense stage of the arrays the launch finds. -/
abbrev G (c : Dev nD) : Nodes.Idx → EReal :=
  denseRow (V c (Pipeline.arrRef spec2 0)) (V c (Pipeline.arrRef spec2 1)) (V c (Pipeline.arrRef spec2 2))
    (V c (Pipeline.arrRef spec2 3)) (V c (Pipeline.arrRef spec2 4))

/-- The row of the whole arrays that row p of point t's block is. -/
def row (t : Fin cfg2.N) (p : Fin 5000) : Fin 50000 :=
  ⟨win2_5.index t (0 : Fin 2) * 5000 + p.val, by
    obtain ⟨-, -, -, -, -, -, -, -, -, -, e10, -⟩ := idx_facts t
    have hp : p.val < 5000 := p.isLt
    omega⟩

/-- Entry (p, q) of point t's result block is entry (row t p, q) of the result array. -/
theorem out_emb (t : Fin cfg2.N) (p : Fin 5000) (q : Fin 128) :
    ((cfg2.win 5).blk t).view.emb (ix2 p q) = (ix2 (row t p) q : S50000x128.Idx) := by
  obtain ⟨-, -, -, -, -, -, -, -, -, -, -, e11⟩ := idx_facts t
  have hq : q.val < 128 := q.isLt
  funext a; apply Fin.ext
  match a with
  | ⟨0, _⟩ => show win2_5.index t (0 : Fin 2) * 5000 + 1 * p.val = win2_5.index t (0 : Fin 2) * 5000 + p.val; omega
  | ⟨1, _⟩ => show win2_5.index t (1 : Fin 2) * 128 + 1 * q.val = q.val; omega

/-- Row p of point t's block of the node features is row (row t p) of the array. -/
theorem read_x (c : Dev nD) (t : Fin cfg2.N) (p : Fin 5000) (k : Fin 128) :
    iblk2 V c 0 t (ix2 p k) = V c (Pipeline.arrRef spec2 0) (ix2 (row t p) k) := by
  obtain ⟨e0, e1, -, -, -, -, -, -, -, -, -, -⟩ := idx_facts t
  have hk : k.val < 128 := k.isLt
  show V c (Pipeline.arrRef spec2 0) (((cfg2.win 0).blk t).view.emb (ix2 p k)) = _
  refine congrArg (V c (Pipeline.arrRef spec2 0)) ?_
  funext a; apply Fin.ext
  match a with
  | ⟨0, _⟩ => show win2_0.index t (0 : Fin 2) * 5000 + 1 * p.val = win2_5.index t (0 : Fin 2) * 5000 + p.val; omega
  | ⟨1, _⟩ => show win2_0.index t (1 : Fin 2) * 128 + 1 * k.val = k.val; omega

/-- Row p of point t's block of the aggregated features is row (row t p) of the array. -/
theorem read_hn (c : Dev nD) (t : Fin cfg2.N) (p : Fin 5000) (k : Fin 128) :
    iblk2 V c 1 t (ix2 p k) = V c (Pipeline.arrRef spec2 1) (ix2 (row t p) k) := by
  obtain ⟨-, -, e2, e3, -, -, -, -, -, -, -, -⟩ := idx_facts t
  have hk : k.val < 128 := k.isLt
  show V c (Pipeline.arrRef spec2 1) (((cfg2.win 1).blk t).view.emb (ix2 p k)) = _
  refine congrArg (V c (Pipeline.arrRef spec2 1)) ?_
  funext a; apply Fin.ext
  match a with
  | ⟨0, _⟩ => show win2_1.index t (0 : Fin 2) * 5000 + 1 * p.val = win2_5.index t (0 : Fin 2) * 5000 + p.val; omega
  | ⟨1, _⟩ => show win2_1.index t (1 : Fin 2) * 128 + 1 * k.val = k.val; omega

/-- Every point stages the self weights whole. -/
theorem read_ws (c : Dev nD) (t : Fin cfg2.N) (q k : Fin 128) :
    iblk2 V c 2 t (ix2 k q) = V c (Pipeline.arrRef spec2 2) (ix2 k q) := by
  obtain ⟨-, -, -, -, e4, e5, -, -, -, -, -, -⟩ := idx_facts t
  have hk : k.val < 128 := k.isLt
  have hq : q.val < 128 := q.isLt
  show V c (Pipeline.arrRef spec2 2) (((cfg2.win 2).blk t).view.emb (ix2 k q)) = _
  refine congrArg (V c (Pipeline.arrRef spec2 2)) ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- Every point stages the neighbour weights whole. -/
theorem read_wn (c : Dev nD) (t : Fin cfg2.N) (q k : Fin 128) :
    iblk2 V c 3 t (ix2 k q) = V c (Pipeline.arrRef spec2 3) (ix2 k q) := by
  obtain ⟨-, -, -, -, -, -, e6, e7, -, -, -, -⟩ := idx_facts t
  have hk : k.val < 128 := k.isLt
  have hq : q.val < 128 := q.isLt
  show V c (Pipeline.arrRef spec2 3) (((cfg2.win 3).blk t).view.emb (ix2 k q)) = _
  refine congrArg (V c (Pipeline.arrRef spec2 3)) ?_
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- Every point stages the bias row whole. -/
theorem read_b (c : Dev nD) (t : Fin cfg2.N) (q : Fin 128) :
    iblk2 V c 4 t (ix2 (0 : Fin 1) q) = V c (Pipeline.arrRef spec2 4) (ix2 (0 : Fin 1) q) := by
  obtain ⟨-, -, -, -, -, -, -, -, e8, e9, -, -⟩ := idx_facts t
  have hq : q.val < 128 := q.isLt
  show V c (Pipeline.arrRef spec2 4) (((cfg2.win 4).blk t).view.emb (ix2 (0 : Fin 1) q)) = _
  refine congrArg (V c (Pipeline.arrRef spec2 4)) ?_
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- WHAT POINT t WRITES BACK is block t of the dense stage of the arrays the launch finds. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x128) origin,
    View.ld_unit_zero (S := S1x128) origin]
  funext j
  obtain ⟨p, q, rfl⟩ : ∃ (p : Fin 5000) (q : Fin 128), j = ix2 p q := ⟨j 0, j 1, eq_ix2 j⟩
  refine (BodyValue.pay2_at _ _ _ _ _ p q).trans ?_
  show _ = G V c (((cfg2.win 5).blk t).view.emb (ix2 p q))
  rw [out_emb t p q]
  exact denseRowAt_congr _ _ _ _ _ _ _ _ _ _ p (row t p) q (read_x V c t p) (read_hn V c t p) (read_ws V c t q)
    (read_wn V c t q) (read_b V c t q)

/-- An index of the result array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v80).slice (win2_5.rect t)).set ↔ _
  rw [View.set_slice_whole, Rect.mem_set_unit]
  exact Iff.rfl

/-- Every index of the result array is in some point's block: the point whose row block holds the index's row. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flushes t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE RESULT ARRAY after the launch: the dense stage of the arrays as the launch found them. -/
theorem final (c : Dev nD) : (dat2 V c).arrAt 5 cfg2.N = G V c :=
  (dat2 V c).arrAt_eq_of_cover 5 (G V c) (fun t _ => flushed_eq V c t) (cover)

end Cert.KernelIdeal.Region2

end
-- ==== Proof.Agg.lean ====
/-
  The mean aggregation of a layer, as one function of the node features and the edge lists.

  For an edge e from node src e to node dst e the message is row src e of x (a negative source index counted from the end, as jnp's
  indexing does). The messages are summed per destination node, the ones per destination node give its in-degree, and node v's
  aggregate is its message sum divided by max (degree v, 1) where the degree is positive, and 0 elsewhere. Both programs compute it by
  this same chain of host operations, so nothing here reads it at an index: it stays one function.
-/
import proofs.«179523_j83038897701149_1_alg».proof.Proof.Gen.KernelIdeal

noncomputable section

namespace Cert.Sage

open Cert.KernelIdeal Cert.KernelIdeal.Gen Idealize.ShloMosaic

variable {F : FTy → Type} [FloatOps F]

/-- The aggregated neighbour features of `x` along the edges `src → dst`. -/
def agg (x : FVec F S50000x128 .f32) (src dst : IVec S640000 32) : FVec F S50000x128 .f32 :=
  let from_ : IVec S640000x1 32 := broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 50000#32))) src)
  let msg : FVec F S640000x128 .f32 := Host.gather gather_S50000x128_S640000x1_S640000x128_1_0_n_n_0_1_1128 x from_
  let to_ : IVec S640000x1 32 := broadcastInDim S640000x1 ![0] bcast_S640000_S640000x1_0 dst
  let total : FVec F S50000x128 .f32 := Host.scatterAdd scatter_S50000x128_S640000x1_S640000x128_1_0_0_1
    (broadcastInDim S50000x128 ![] bcast_S_S50000x128 (constant S_ .f32 0x00000000#32)) to_ msg
  let deg : FVec F S50000 .f32 := Host.scatterAdd scatter_S50000_S640000x1_S640000_n_0_0_1
    (broadcastInDim S50000 ![] bcast_S_S50000 (constant S_ .f32 0x00000000#32)) to_
    (broadcastInDim S640000 ![] bcast_S_S640000 (constant S_ .f32 0x3F800000#32))
  let pos : IVec S50000x1 1 := cmpf .ogt (broadcastInDim S50000x1 ![0] bcast_S50000_S50000x1_0 deg)
    (broadcastInDim S50000x1 ![] bcast_S_S50000x1 (constant S_ .f32 0x00000000#32))
  let den : FVec F S50000x128 .f32 := broadcastInDim S50000x128 ![0, 1] bcast_S50000x1_S50000x128_0_1
    (broadcastInDim S50000x1 ![0] bcast_S50000_S50000x1_0
      (maximumf deg (broadcastInDim S50000 ![] bcast_S_S50000 (constant S_ .f32 0x3F800000#32))))
  select (broadcastInDim S50000x128 ![0, 1] bcast_S50000x1_S50000x128_0_1 pos) (Host.divf total den)
    (broadcastInDim S50000x128 ![] bcast_S_S50000x128 (constant S_ .f32 0x00000000#32))

end Cert.Sage

end
-- ==== Proof.Stretch0.lean ====
/-
  The host operations between the launch of @main and launch 0, read as functions of what they start from.

  From any contents W of the device's buffers, the operations leave in the aggregated-features buffer the mean aggregation of the
  layer's input along the edge lists (the chain of Proof/Agg.lean, operation for operation), in the two weight buffers the layer's
  weight matrices narrowed to bfloat16, in the bias buffer the bias vector as a one-row matrix, and they leave the layer's input,
  the edge lists and the later layers' parameters as they were.
-/
import proofs.«179523_j83038897701149_1_alg».proof.Proof.Gen.KernelIdeal.Launch
import proofs.«179523_j83038897701149_1_alg».proof.Proof.Agg
import Idealize.ShloMosaic.Lib.StableHlo.Run

noncomputable section

namespace Cert.KernelIdeal.Stretch0

open Cert.KernelIdeal Cert.KernelIdeal.Gen Idealize.ShloMosaic Idealize.ShloMosaic.StableHlo Idealize.SL.Sem Cert.Sage

variable {F : FTy → Type} [FloatOps F]

/-- The buffers' contents when launch 0 is entered, from contents `W` before the stretch. -/
abbrev entry (W : Valuation τ sig (Elt F)) : Valuation τ sig (Elt F) :=
  after hostOps0_2 (after hostOps0_1 (after hostOps0 W))

set_option maxHeartbeats 4000000 in
/-- The aggregated features the launch reads are the mean aggregation of the layer's input. -/
theorem hn_eq (W : Valuation τ sig (Elt F)) :
    entry W (Proc.devRef .tc main_v22)
      = agg (W (Proc.devRef .tc main_arg0)) (W (Proc.devRef .tc main_arg1)) (W (Proc.devRef .tc main_arg2)) := by
  simp only [entry, hostOps0_2, hostOps0_1, hostOps0]
  after_results_simp
  rfl

set_option maxHeartbeats 4000000 in
/-- The self weights the launch reads are the layer's, narrowed. -/
theorem ws_eq (W : Valuation τ sig (Elt F)) :
    entry W (Proc.devRef .tc main_v23) = truncf .bf16 (W (Proc.devRef .tc main_arg4)) bitsLt_bf16_f32 := by
  simp only [entry, hostOps0_2, hostOps0_1, hostOps0]
  after_results_simp

set_option maxHeartbeats 4000000 in
/-- The neighbour weights the launch reads are the layer's, narrowed. -/
theorem wn_eq (W : Valuation τ sig (Elt F)) :
    entry W (Proc.devRef .tc main_v24) = truncf .bf16 (W (Proc.devRef .tc main_arg5)) bitsLt_bf16_f32 := by
  simp only [entry, hostOps0_2, hostOps0_1, hostOps0]
  after_results_simp

set_option maxHeartbeats 4000000 in
/-- The bias row the launch reads is the layer's bias vector laid out as one row. -/
theorem b_eq (W : Valuation τ sig (Elt F)) :
    entry W (Proc.devRef .tc main_v25) = shapeCast S1x128 (W (Proc.devRef .tc main_arg6)) shapeCasts_S128_S1x128 := by
  simp only [entry, hostOps0_2, hostOps0_1, hostOps0]
  after_results_simp
  rfl

set_option maxHeartbeats 4000000 in
/-- The stretch leaves `main_arg0` as it was. -/
theorem kept_main_arg0 (W : Valuation τ sig (Elt F)) : entry W (Proc.devRef .tc main_arg0) = W (Proc.devRef .tc main_arg0) := by
  simp only [entry, hostOps0_2, hostOps0_1, hostOps0]
  after_results_simp

set_option maxHeartbeats 4000000 in
/-- The stretch leaves `main_arg1` as it was. -/
theorem kept_main_arg1 (W : Valuation τ sig (Elt F)) : entry W (Proc.devRef .tc main_arg1) = W (Proc.devRef .tc main_arg1) := by
  simp only [entry, hostOps0_2, hostOps0_1, hostOps0]
  after_results_simp

set_option maxHeartbeats 4000000 in
/-- The stretch leaves `main_arg2` as it was. -/
theorem kept_main_arg2 (W : Valuation τ sig (Elt F)) : entry W (Proc.devRef .tc main_arg2) = W (Proc.devRef .tc main_arg2) := by
  simp only [entry, hostOps0_2, hostOps0_1, hostOps0]
  after_results_simp

set_option maxHeartbeats 4000000 in
/-- The stretch leaves `main_arg7` as it was. -/
theorem kept_main_arg7 (W : Valuation τ sig (Elt F)) : entry W (Proc.devRef .tc main_arg7) = W (Proc.devRef .tc main_arg7) := by
  simp only [entry, hostOps0_2, hostOps0_1, hostOps0]
  after_results_simp

set_option maxHeartbeats 4000000 in
/-- The stretch leaves `main_arg8` as it was. -/
theorem kept_main_arg8 (W : Valuation τ sig (Elt F)) : entry W (Proc.devRef .tc main_arg8) = W (Proc.devRef .tc main_arg8) := by
  simp only [entry, hostOps0_2, hostOps0_1, hostOps0]
  after_results_simp

set_option maxHeartbeats 4000000 in
/-- The stretch leaves `main_arg9` as it was. -/
theorem kept_main_arg9 (W : Valuation τ sig (Elt F)) : entry W (Proc.devRef .tc main_arg9) = W (Proc.devRef .tc main_arg9) := by
  simp only [entry, hostOps0_2, hostOps0_1, hostOps0]
  after_results_simp

set_option maxHeartbeats 4000000 in
/-- The stretch leaves `main_arg10` as it was. -/
theorem kept_main_arg10 (W : Valuation τ sig (Elt F)) : entry W (Proc.devRef .tc main_arg10) = W (Proc.devRef .tc main_arg10) := by
  simp only [entry, hostOps0_2, hostOps0_1, hostOps0]
  after_results_simp

set_option maxHeartbeats 4000000 in
/-- The stretch leaves `main_arg11` as it was. -/
theorem kept_main_arg11 (W : Valuation τ sig (Elt F)) : entry W (Proc.devRef .tc main_arg11) = W (Proc.devRef .tc main_arg11) := by
  simp only [entry, hostOps0_2, hostOps0_1, hostOps0]
  after_results_simp

set_option maxHeartbeats 4000000 in
/-- The stretch leaves `main_arg12` as it was. -/
theorem kept_main_arg12 (W : Valuation τ sig (Elt F)) : entry W (Proc.devRef .tc main_arg12) = W (Proc.devRef .tc main_arg12) := by
  simp only [entry, hostOps0_2, hostOps0_1, hostOps0]
  after_results_simp

end Cert.KernelIdeal.Stretch0

end
-- ==== Proof.Stretch1.lean ====
/-
  The host operations between launch 0 and launch 1, read as functions of what they start from.

  From any contents W of the device's buffers, the operations leave in the aggregated-features buffer the mean aggregation of the
  layer's input along the edge lists (the chain of Proof/Agg.lean, operation for operation), in the two weight buffers the layer's
  weight matrices narrowed to bfloat16, in the bias buffer the bias vector as a one-row matrix, and they leave the layer's input,
  the edge lists and the later layers' parameters as they were.
-/
import proofs.«179523_j83038897701149_1_alg».proof.Proof.Gen.KernelIdeal.Launch
import proofs.«179523_j83038897701149_1_alg».proof.Proof.Agg
import Idealize.ShloMosaic.Lib.StableHlo.Run

noncomputable section

namespace Cert.KernelIdeal.Stretch1

open Cert.KernelIdeal Cert.KernelIdeal.Gen Idealize.ShloMosaic Idealize.ShloMosaic.StableHlo Idealize.SL.Sem Cert.Sage

variable {F : FTy → Type} [FloatOps F]

/-- The buffers' contents when launch 1 is entered, from contents `W` before the stretch. -/
abbrev entry (W : Valuation τ sig (Elt F)) : Valuation τ sig (Elt F) :=
  after hostOps1_2 (after hostOps1_1 (after hostOps1 W))

set_option maxHeartbeats 4000000 in
/-- The aggregated features the launch reads are the mean aggregation of the layer's input. -/
theorem hn_eq (W : Valuation τ sig (Elt F)) :
    entry W (Proc.devRef .tc main_v49)
      = agg (W (Proc.devRef .tc main_v26)) (W (Proc.devRef .tc main_arg1)) (W (Proc.devRef .tc main_arg2)) := by
  simp only [entry, hostOps1_2, hostOps1_1, hostOps1]
  after_results_simp
  rfl

set_option maxHeartbeats 4000000 in
/-- The self weights the launch reads are the layer's, narrowed. -/
theorem ws_eq (W : Valuation τ sig (Elt F)) :
    entry W (Proc.devRef .tc main_v50) = truncf .bf16 (W (Proc.devRef .tc main_arg7)) bitsLt_bf16_f32 := by
  simp only [entry, hostOps1_2, hostOps1_1, hostOps1]
  after_results_simp

set_option maxHeartbeats 4000000 in
/-- The neighbour weights the launch reads are the layer's, narrowed. -/
theorem wn_eq (W : Valuation τ sig (Elt F)) :
    entry W (Proc.devRef .tc main_v51) = truncf .bf16 (W (Proc.devRef .tc main_arg8)) bitsLt_bf16_f32 := by
  simp only [entry, hostOps1_2, hostOps1_1, hostOps1]
  after_results_simp

set_option maxHeartbeats 4000000 in
/-- The bias row the launch reads is the layer's bias vector laid out as one row. -/
theorem b_eq (W : Valuation τ sig (Elt F)) :
    entry W (Proc.devRef .tc main_v52) = shapeCast S1x128 (W (Proc.devRef .tc main_arg9)) shapeCasts_S128_S1x128 := by
  simp only [entry, hostOps1_2, hostOps1_1, hostOps1]
  after_results_simp
  rfl

set_option maxHeartbeats 4000000 in
/-- The stretch leaves `main_v26` as it was. -/
theorem kept_main_v26 (W : Valuation τ sig (Elt F)) : entry W (Proc.devRef .tc main_v26) = W (Proc.devRef .tc main_v26) := by
  simp only [entry, hostOps1_2, hostOps1_1, hostOps1]
  after_results_simp

set_option maxHeartbeats 4000000 in
/-- The stretch leaves `main_arg1` as it was. -/
theorem kept_main_arg1 (W : Valuation τ sig (Elt F)) : entry W (Proc.devRef .tc main_arg1) = W (Proc.devRef .tc main_arg1) := by
  simp only [entry, hostOps1_2, hostOps1_1, hostOps1]
  after_results_simp

set_option maxHeartbeats 4000000 in
/-- The stretch leaves `main_arg2` as it was. -/
theorem kept_main_arg2 (W : Valuation τ sig (Elt F)) : entry W (Proc.devRef .tc main_arg2) = W (Proc.devRef .tc main_arg2) := by
  simp only [entry, hostOps1_2, hostOps1_1, hostOps1]
  after_results_simp

set_option maxHeartbeats 4000000 in
/-- The stretch leaves `main_arg7` as it was. -/
theorem kept_main_arg7 (W : Valuation τ sig (Elt F)) : entry W (Proc.devRef .tc main_arg7) = W (Proc.devRef .tc main_arg7) := by
  simp only [entry, hostOps1_2, hostOps1_1, hostOps1]
  after_results_simp

set_option maxHeartbeats 4000000 in
/-- The stretch leaves `main_arg8` as it was. -/
theorem kept_main_arg8 (W : Valuation τ sig (Elt F)) : entry W (Proc.devRef .tc main_arg8) = W (Proc.devRef .tc main_arg8) := by
  simp only [entry, hostOps1_2, hostOps1_1, hostOps1]
  after_results_simp

set_option maxHeartbeats 4000000 in
/-- The stretch leaves `main_arg9` as it was. -/
theorem kept_main_arg9 (W : Valuation τ sig (Elt F)) : entry W (Proc.devRef .tc main_arg9) = W (Proc.devRef .tc main_arg9) := by
  simp only [entry, hostOps1_2, hostOps1_1, hostOps1]
  after_results_simp

set_option maxHeartbeats 4000000 in
/-- The stretch leaves `main_arg10` as it was. -/
theorem kept_main_arg10 (W : Valuation τ sig (Elt F)) : entry W (Proc.devRef .tc main_arg10) = W (Proc.devRef .tc main_arg10) := by
  simp only [entry, hostOps1_2, hostOps1_1, hostOps1]
  after_results_simp

set_option maxHeartbeats 4000000 in
/-- The stretch leaves `main_arg11` as it was. -/
theorem kept_main_arg11 (W : Valuation τ sig (Elt F)) : entry W (Proc.devRef .tc main_arg11) = W (Proc.devRef .tc main_arg11) := by
  simp only [entry, hostOps1_2, hostOps1_1, hostOps1]
  after_results_simp

set_option maxHeartbeats 4000000 in
/-- The stretch leaves `main_arg12` as it was. -/
theorem kept_main_arg12 (W : Valuation τ sig (Elt F)) : entry W (Proc.devRef .tc main_arg12) = W (Proc.devRef .tc main_arg12) := by
  simp only [entry, hostOps1_2, hostOps1_1, hostOps1]
  after_results_simp

end Cert.KernelIdeal.Stretch1

end
-- ==== Proof.Stretch2.lean ====
/-
  The host operations between launch 1 and launch 2, read as functions of what they start from.

  From any contents W of the device's buffers, the operations leave in the aggregated-features buffer the mean aggregation of the
  layer's input along the edge lists (the chain of Proof/Agg.lean, operation for operation), in the two weight buffers the layer's
  weight matrices narrowed to bfloat16, in the bias buffer the bias vector as a one-row matrix, and they leave the layer's input,
  the edge lists and the later layers' parameters as they were.
-/
import proofs.«179523_j83038897701149_1_alg».proof.Proof.Gen.KernelIdeal.Launch
import proofs.«179523_j83038897701149_1_alg».proof.Proof.Agg
import Idealize.ShloMosaic.Lib.StableHlo.Run

noncomputable section

namespace Cert.KernelIdeal.Stretch2

open Cert.KernelIdeal Cert.KernelIdeal.Gen Idealize.ShloMosaic Idealize.ShloMosaic.StableHlo Idealize.SL.Sem Cert.Sage

variable {F : FTy → Type} [FloatOps F]

/-- The buffers' contents when launch 2 is entered, from contents `W` before the stretch. -/
abbrev entry (W : Valuation τ sig (Elt F)) : Valuation τ sig (Elt F) :=
  after hostOps2_2 (after hostOps2_1 (after hostOps2 W))

set_option maxHeartbeats 4000000 in
/-- The aggregated features the launch reads are the mean aggregation of the layer's input. -/
theorem hn_eq (W : Valuation τ sig (Elt F)) :
    entry W (Proc.devRef .tc main_v76)
      = agg (W (Proc.devRef .tc main_v53)) (W (Proc.devRef .tc main_arg1)) (W (Proc.devRef .tc main_arg2)) := by
  simp only [entry, hostOps2_2, hostOps2_1, hostOps2]
  after_results_simp
  rfl

set_option maxHeartbeats 4000000 in
/-- The self weights the launch reads are the layer's, narrowed. -/
theorem ws_eq (W : Valuation τ sig (Elt F)) :
    entry W (Proc.devRef .tc main_v77) = truncf .bf16 (W (Proc.devRef .tc main_arg10)) bitsLt_bf16_f32 := by
  simp only [entry, hostOps2_2, hostOps2_1, hostOps2]
  after_results_simp

set_option maxHeartbeats 4000000 in
/-- The neighbour weights the launch reads are the layer's, narrowed. -/
theorem wn_eq (W : Valuation τ sig (Elt F)) :
    entry W (Proc.devRef .tc main_v78) = truncf .bf16 (W (Proc.devRef .tc main_arg11)) bitsLt_bf16_f32 := by
  simp only [entry, hostOps2_2, hostOps2_1, hostOps2]
  after_results_simp

set_option maxHeartbeats 4000000 in
/-- The bias row the launch reads is the layer's bias vector laid out as one row. -/
theorem b_eq (W : Valuation τ sig (Elt F)) :
    entry W (Proc.devRef .tc main_v79) = shapeCast S1x128 (W (Proc.devRef .tc main_arg12)) shapeCasts_S128_S1x128 := by
  simp only [entry, hostOps2_2, hostOps2_1, hostOps2]
  after_results_simp
  rfl

set_option maxHeartbeats 4000000 in
/-- The stretch leaves `main_v53` as it was. -/
theorem kept_main_v53 (W : Valuation τ sig (Elt F)) : entry W (Proc.devRef .tc main_v53) = W (Proc.devRef .tc main_v53) := by
  simp only [entry, hostOps2_2, hostOps2_1, hostOps2]
  after_results_simp

set_option maxHeartbeats 4000000 in
/-- The stretch leaves `main_arg1` as it was. -/
theorem kept_main_arg1 (W : Valuation τ sig (Elt F)) : entry W (Proc.devRef .tc main_arg1) = W (Proc.devRef .tc main_arg1) := by
  simp only [entry, hostOps2_2, hostOps2_1, hostOps2]
  after_results_simp

set_option maxHeartbeats 4000000 in
/-- The stretch leaves `main_arg2` as it was. -/
theorem kept_main_arg2 (W : Valuation τ sig (Elt F)) : entry W (Proc.devRef .tc main_arg2) = W (Proc.devRef .tc main_arg2) := by
  simp only [entry, hostOps2_2, hostOps2_1, hostOps2]
  after_results_simp

set_option maxHeartbeats 4000000 in
/-- The stretch leaves `main_arg7` as it was. -/
theorem kept_main_arg7 (W : Valuation τ sig (Elt F)) : entry W (Proc.devRef .tc main_arg7) = W (Proc.devRef .tc main_arg7) := by
  simp only [entry, hostOps2_2, hostOps2_1, hostOps2]
  after_results_simp

set_option maxHeartbeats 4000000 in
/-- The stretch leaves `main_arg8` as it was. -/
theorem kept_main_arg8 (W : Valuation τ sig (Elt F)) : entry W (Proc.devRef .tc main_arg8) = W (Proc.devRef .tc main_arg8) := by
  simp only [entry, hostOps2_2, hostOps2_1, hostOps2]
  after_results_simp

set_option maxHeartbeats 4000000 in
/-- The stretch leaves `main_arg9` as it was. -/
theorem kept_main_arg9 (W : Valuation τ sig (Elt F)) : entry W (Proc.devRef .tc main_arg9) = W (Proc.devRef .tc main_arg9) := by
  simp only [entry, hostOps2_2, hostOps2_1, hostOps2]
  after_results_simp

set_option maxHeartbeats 4000000 in
/-- The stretch leaves `main_arg10` as it was. -/
theorem kept_main_arg10 (W : Valuation τ sig (Elt F)) : entry W (Proc.devRef .tc main_arg10) = W (Proc.devRef .tc main_arg10) := by
  simp only [entry, hostOps2_2, hostOps2_1, hostOps2]
  after_results_simp

set_option maxHeartbeats 4000000 in
/-- The stretch leaves `main_arg11` as it was. -/
theorem kept_main_arg11 (W : Valuation τ sig (Elt F)) : entry W (Proc.devRef .tc main_arg11) = W (Proc.devRef .tc main_arg11) := by
  simp only [entry, hostOps2_2, hostOps2_1, hostOps2]
  after_results_simp

set_option maxHeartbeats 4000000 in
/-- The stretch leaves `main_arg12` as it was. -/
theorem kept_main_arg12 (W : Valuation τ sig (Elt F)) : entry W (Proc.devRef .tc main_arg12) = W (Proc.devRef .tc main_arg12) := by
  simp only [entry, hostOps2_2, hostOps2_1, hostOps2]
  after_results_simp

end Cert.KernelIdeal.Stretch2

end
-- ==== Proof.KValue.lean ====
/-
  The kernel program's result as one function of its arguments: three dense layers, each on the layer before and on its mean
  aggregation.

  The program alternates host stretches and launches. Each stretch turns the buffers' contents into the next launch's operands: the
  aggregation of the layer's input, the layer's weights narrowed to bfloat16 (the identity on the extended reals) and its bias as a
  one-row matrix; it writes no argument and no earlier result. Each launch leaves in its result array the dense stage of its
  operands and every other buffer as it was. Read from the last boundary backwards, the result is the network of Proof/Spec.lean
  over the launch memory's arguments.
-/
import proofs.«179523_j83038897701149_1_alg».proof.Proof.Gen.KernelIdeal.Frame
import proofs.«179523_j83038897701149_1_alg».proof.Proof.KRun
import proofs.«179523_j83038897701149_1_alg».proof.Proof.Region0
import proofs.«179523_j83038897701149_1_alg».proof.Proof.Region1
import proofs.«179523_j83038897701149_1_alg».proof.Proof.Region2
import proofs.«179523_j83038897701149_1_alg».proof.Proof.Stretch0
import proofs.«179523_j83038897701149_1_alg».proof.Proof.Stretch1
import proofs.«179523_j83038897701149_1_alg».proof.Proof.Stretch2
import Idealize.ShloMosaic.Lib.ValueLayout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.Sage

variable (m : (ℓ : Loc nD τ sig) → Buf (Elt Ideal) ℓ) (ρ : Dev nD → PrngReg)

/-- A launch's operands give the layer of the specification: the narrowed weights are the weights, and the bias row's entry
    (0, q) is the bias vector's entry q. -/
theorem layer_eq (x hn : Nodes.Idx → EReal) (ws wn : FVec Ideal S128x128 .f32) (b : FVec Ideal S128 .f32) :
    denseRow x hn (truncf (F := Ideal) .bf16 ws bitsLt_bf16_f32) (truncf (F := Ideal) .bf16 wn bitsLt_bf16_f32) (shapeCast S1x128 b shapeCasts_S128_S1x128)
      = dense x hn ws wn b :=
  denseRow_eq_dense x hn ws wn b _ (fun q => shapeCast_a_1a_apply b shapeCasts_S128_S1x128 0 q)

/-! ## The arguments at the boundaries after launches 0 and 1: as launched -/

theorem W4_arg1 (c : Dev nD) : W4 m ρ c (Proc.devRef .tc main_arg1) = m ((c : Thread nD τ).loc main_arg1) :=
  (W4_of_ne m ρ c main_arg1 (by decide)).trans ((Stretch0.kept_main_arg1 (W0 m ρ c)).trans rfl)
theorem W4_arg2 (c : Dev nD) : W4 m ρ c (Proc.devRef .tc main_arg2) = m ((c : Thread nD τ).loc main_arg2) :=
  (W4_of_ne m ρ c main_arg2 (by decide)).trans ((Stretch0.kept_main_arg2 (W0 m ρ c)).trans rfl)
theorem W4_arg7 (c : Dev nD) : W4 m ρ c (Proc.devRef .tc main_arg7) = m ((c : Thread nD τ).loc main_arg7) :=
  (W4_of_ne m ρ c main_arg7 (by decide)).trans ((Stretch0.kept_main_arg7 (W0 m ρ c)).trans rfl)
theorem W4_arg8 (c : Dev nD) : W4 m ρ c (Proc.devRef .tc main_arg8) = m ((c : Thread nD τ).loc main_arg8) :=
  (W4_of_ne m ρ c main_arg8 (by decide)).trans ((Stretch0.kept_main_arg8 (W0 m ρ c)).trans rfl)
theorem W4_arg9 (c : Dev nD) : W4 m ρ c (Proc.devRef .tc main_arg9) = m ((c : Thread nD τ).loc main_arg9) :=
  (W4_of_ne m ρ c main_arg9 (by decide)).trans ((Stretch0.kept_main_arg9 (W0 m ρ c)).trans rfl)
theorem W4_arg10 (c : Dev nD) : W4 m ρ c (Proc.devRef .tc main_arg10) = m ((c : Thread nD τ).loc main_arg10) :=
  (W4_of_ne m ρ c main_arg10 (by decide)).trans ((Stretch0.kept_main_arg10 (W0 m ρ c)).trans rfl)
theorem W4_arg11 (c : Dev nD) : W4 m ρ c (Proc.devRef .tc main_arg11) = m ((c : Thread nD τ).loc main_arg11) :=
  (W4_of_ne m ρ c main_arg11 (by decide)).trans ((Stretch0.kept_main_arg11 (W0 m ρ c)).trans rfl)
theorem W4_arg12 (c : Dev nD) : W4 m ρ c (Proc.devRef .tc main_arg12) = m ((c : Thread nD τ).loc main_arg12) :=
  (W4_of_ne m ρ c main_arg12 (by decide)).trans ((Stretch0.kept_main_arg12 (W0 m ρ c)).trans rfl)

theorem W8_arg1 (c : Dev nD) : W8 m ρ c (Proc.devRef .tc main_arg1) = m ((c : Thread nD τ).loc main_arg1) :=
  (W8_of_ne m ρ c main_arg1 (by decide)).trans ((Stretch1.kept_main_arg1 (W4 m ρ c)).trans (W4_arg1 m ρ c))
theorem W8_arg2 (c : Dev nD) : W8 m ρ c (Proc.devRef .tc main_arg2) = m ((c : Thread nD τ).loc main_arg2) :=
  (W8_of_ne m ρ c main_arg2 (by decide)).trans ((Stretch1.kept_main_arg2 (W4 m ρ c)).trans (W4_arg2 m ρ c))
theorem W8_arg10 (c : Dev nD) : W8 m ρ c (Proc.devRef .tc main_arg10) = m ((c : Thread nD τ).loc main_arg10) :=
  (W8_of_ne m ρ c main_arg10 (by decide)).trans ((Stretch1.kept_main_arg10 (W4 m ρ c)).trans (W4_arg10 m ρ c))
theorem W8_arg11 (c : Dev nD) : W8 m ρ c (Proc.devRef .tc main_arg11) = m ((c : Thread nD τ).loc main_arg11) :=
  (W8_of_ne m ρ c main_arg11 (by decide)).trans ((Stretch1.kept_main_arg11 (W4 m ρ c)).trans (W4_arg11 m ρ c))
theorem W8_arg12 (c : Dev nD) : W8 m ρ c (Proc.devRef .tc main_arg12) = m ((c : Thread nD τ).loc main_arg12) :=
  (W8_of_ne m ρ c main_arg12 (by decide)).trans ((Stretch1.kept_main_arg12 (W4 m ρ c)).trans (W4_arg12 m ρ c))

/-! ## The three results -/

/-- After launch 0 its result array holds layer 1 of the arguments. -/
theorem h1_eq (c : Dev nD) : W4 m ρ c (Proc.devRef .tc main_v26)
    = dense (m ((c : Thread nD τ).loc main_arg0)) (agg (F := Ideal) (m ((c : Thread nD τ).loc main_arg0)) (m ((c : Thread nD τ).loc main_arg1)) (m ((c : Thread nD τ).loc main_arg2))) (m ((c : Thread nD τ).loc main_arg4)) (m ((c : Thread nD τ).loc main_arg5)) (m ((c : Thread nD τ).loc main_arg6)) := by
  refine (W4_arr m ρ c 5).trans ((Region0.final (V3 m ρ) c).trans ?_)
  have e0 : W3 m ρ c (Proc.devRef .tc main_arg0) = (m ((c : Thread nD τ).loc main_arg0)) := (Stretch0.kept_main_arg0 (W0 m ρ c)).trans rfl
  have e1 : W3 m ρ c (Proc.devRef .tc main_v22) = agg (F := Ideal) (m ((c : Thread nD τ).loc main_arg0)) (m ((c : Thread nD τ).loc main_arg1)) (m ((c : Thread nD τ).loc main_arg2)) := (Stretch0.hn_eq (W0 m ρ c)).trans rfl
  have e2 : W3 m ρ c (Proc.devRef .tc main_v23) = truncf (F := Ideal) .bf16 (m ((c : Thread nD τ).loc main_arg4)) bitsLt_bf16_f32 := Stretch0.ws_eq (W0 m ρ c)
  have e3 : W3 m ρ c (Proc.devRef .tc main_v24) = truncf (F := Ideal) .bf16 (m ((c : Thread nD τ).loc main_arg5)) bitsLt_bf16_f32 := Stretch0.wn_eq (W0 m ρ c)
  have e4 : W3 m ρ c (Proc.devRef .tc main_v25) = shapeCast S1x128 (m ((c : Thread nD τ).loc main_arg6)) shapeCasts_S128_S1x128 := Stretch0.b_eq (W0 m ρ c)
  show denseRow (W3 m ρ c (Proc.devRef .tc main_arg0)) (W3 m ρ c (Proc.devRef .tc main_v22)) (W3 m ρ c (Proc.devRef .tc main_v23))
    (W3 m ρ c (Proc.devRef .tc main_v24)) (W3 m ρ c (Proc.devRef .tc main_v25)) = _
  rw [e0, e1, e2, e3, e4]
  exact layer_eq _ _ _ _ _

/-- After launch 1 its result array holds layer 2 of the arguments. -/
theorem h2_eq (c : Dev nD) : W8 m ρ c (Proc.devRef .tc main_v53)
    = dense (W4 m ρ c (Proc.devRef .tc main_v26)) (agg (F := Ideal) (W4 m ρ c (Proc.devRef .tc main_v26)) (m ((c : Thread nD τ).loc main_arg1)) (m ((c : Thread nD τ).loc main_arg2))) (m ((c : Thread nD τ).loc main_arg7)) (m ((c : Thread nD τ).loc main_arg8)) (m ((c : Thread nD τ).loc main_arg9)) := by
  refine (W8_arr m ρ c 5).trans ((Region1.final (V7 m ρ) c).trans ?_)
  have e0 : W7 m ρ c (Proc.devRef .tc main_v26) = W4 m ρ c (Proc.devRef .tc main_v26) := Stretch1.kept_main_v26 (W4 m ρ c)
  have e1 : W7 m ρ c (Proc.devRef .tc main_v49) = agg (F := Ideal) (W4 m ρ c (Proc.devRef .tc main_v26)) (m ((c : Thread nD τ).loc main_arg1)) (m ((c : Thread nD τ).loc main_arg2)) := by
    refine (Stretch1.hn_eq (W4 m ρ c)).trans ?_
    rw [W4_arg1, W4_arg2]
  have e2 : W7 m ρ c (Proc.devRef .tc main_v50) = truncf (F := Ideal) .bf16 (m ((c : Thread nD τ).loc main_arg7)) bitsLt_bf16_f32 := by
    refine (Stretch1.ws_eq (W4 m ρ c)).trans ?_
    rw [W4_arg7]
  have e3 : W7 m ρ c (Proc.devRef .tc main_v51) = truncf (F := Ideal) .bf16 (m ((c : Thread nD τ).loc main_arg8)) bitsLt_bf16_f32 := by
    refine (Stretch1.wn_eq (W4 m ρ c)).trans ?_
    rw [W4_arg8]
  have e4 : W7 m ρ c (Proc.devRef .tc main_v52) = shapeCast S1x128 (m ((c : Thread nD τ).loc main_arg9)) shapeCasts_S128_S1x128 := by
    refine (Stretch1.b_eq (W4 m ρ c)).trans ?_
    rw [W4_arg9]
  show denseRow (W7 m ρ c (Proc.devRef .tc main_v26)) (W7 m ρ c (Proc.devRef .tc main_v49)) (W7 m ρ c (Proc.devRef .tc main_v50))
    (W7 m ρ c (Proc.devRef .tc main_v51)) (W7 m ρ c (Proc.devRef .tc main_v52)) = _
  rw [e0, e1, e2, e3, e4]
  exact layer_eq _ _ _ _ _

/-- After launch 2 its result array holds layer 3 of the arguments. -/
theorem h3_eq (c : Dev nD) : W12 m ρ c (Proc.devRef .tc main_v80)
    = dense (W8 m ρ c (Proc.devRef .tc main_v53)) (agg (F := Ideal) (W8 m ρ c (Proc.devRef .tc main_v53)) (m ((c : Thread nD τ).loc main_arg1)) (m ((c : Thread nD τ).loc main_arg2))) (m ((c : Thread nD τ).loc main_arg10)) (m ((c : Thread nD τ).loc main_arg11)) (m ((c : Thread nD τ).loc main_arg12)) := by
  refine (W12_arr m ρ c 5).trans ((Region2.final (V11 m ρ) c).trans ?_)
  have e0 : W11 m ρ c (Proc.devRef .tc main_v53) = W8 m ρ c (Proc.devRef .tc main_v53) := Stretch2.kept_main_v53 (W8 m ρ c)
  have e1 : W11 m ρ c (Proc.devRef .tc main_v76) = agg (F := Ideal) (W8 m ρ c (Proc.devRef .tc main_v53)) (m ((c : Thread nD τ).loc main_arg1)) (m ((c : Thread nD τ).loc main_arg2)) := by
    refine (Stretch2.hn_eq (W8 m ρ c)).trans ?_
    rw [W8_arg1, W8_arg2]
  have e2 : W11 m ρ c (Proc.devRef .tc main_v77) = truncf (F := Ideal) .bf16 (m ((c : Thread nD τ).loc main_arg10)) bitsLt_bf16_f32 := by
    refine (Stretch2.ws_eq (W8 m ρ c)).trans ?_
    rw [W8_arg10]
  have e3 : W11 m ρ c (Proc.devRef .tc main_v78) = truncf (F := Ideal) .bf16 (m ((c : Thread nD τ).loc main_arg11)) bitsLt_bf16_f32 := by
    refine (Stretch2.wn_eq (W8 m ρ c)).trans ?_
    rw [W8_arg11]
  have e4 : W11 m ρ c (Proc.devRef .tc main_v79) = shapeCast S1x128 (m ((c : Thread nD τ).loc main_arg12)) shapeCasts_S128_S1x128 := by
    refine (Stretch2.b_eq (W8 m ρ c)).trans ?_
    rw [W8_arg12]
  show denseRow (W11 m ρ c (Proc.devRef .tc main_v53)) (W11 m ρ c (Proc.devRef .tc main_v76)) (W11 m ρ c (Proc.devRef .tc main_v77))
    (W11 m ρ c (Proc.devRef .tc main_v78)) (W11 m ρ c (Proc.devRef .tc main_v79)) = _
  rw [e0, e1, e2, e3, e4]
  exact layer_eq _ _ _ _ _

/-- THE KERNEL'S RESULT: the network of the arguments. -/
theorem result_eq (c : Dev nD) : W12 m ρ c (Proc.devRef .tc main_v80)
    = net (fun x => agg (F := Ideal) x (m ((c : Thread nD τ).loc main_arg1)) (m ((c : Thread nD τ).loc main_arg2))) (m ((c : Thread nD τ).loc main_arg0))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [h3_eq, h2_eq, h1_eq]
  rfl

/-- THE KERNEL PROGRAM'S RUN, READ: every weakly fair execution terminates, nothing faulting, with the result array at the network
    of the arguments and the arguments as launched. -/
theorem run : θ_run (defs (F := Ideal)) (onTc (τ := τ) (main (F := Ideal))) ⟨m, fun _ => 0, ρ⟩ (fun r => ∀ c : Dev nD,
      r.2.mem ((c.tc : Thread nD τ).loc main_v80)
        = net (fun x => agg (F := Ideal) x (m ((c.tc : Thread nD τ).loc main_arg1)) (m ((c.tc : Thread nD τ).loc main_arg2))) (m ((c.tc : Thread nD τ).loc main_arg0))
            (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c => ⟨(h c).1.trans (result_eq m ρ c), (h c).2⟩)
    (Cert.KernelIdeal.RunNamed.run_named (F := Ideal) m ρ)

end Cert.KernelIdeal.KValue

end
-- ==== Proof.RefValue.lean ====
/-
  The reference program's result as the three-layer network of the specification.

  The reference computes three graph-convolution layers in a row. A layer takes the current node features h (50000 rows of 128; the
  first layer's h is the input x) and forms, first, the mean aggregate of h along the edges: the rows of h at the edges' sources are
  gathered, summed per destination node, and divided by the destination's in-degree clamped below by 1, a node of in-degree 0
  receiving 0. This is a fixed chain of array operations applied to h and the two edge lists, the same chain in each layer, and it
  is the function `Cert.Sage.agg` word for word; nothing below looks inside it. Second, the layer forms the two matrix products
  h * w_self and (aggregate of h) * w_neigh, adds them, adds the bias vector along every row, takes the maximum with 0, and adds h back.
  Read at an entry (p, q) a matrix product is the sum over k of (left operand at (p, k)) * (right operand at (k, q)), the bias
  broadcast is the bias at q, and the sum, the maximum and the residual act entry by entry; so the entry is

      max ((sum over k of h (p, k) * w_self (k, q)) + (sum over k of agg h (p, k) * w_neigh (k, q)) + b q, 0) + h (p, q),

  which is `Cert.Sage.dense h (agg h) w_self w_neigh b` at (p, q). The operations and their grouping are the specification's own, so no
  arithmetic law and no finiteness of any entry is used: each step is a reading of a stage at an index or an identification of two
  index functions. Chaining the three layers, each on the layer before, gives `Cert.Sage.net`.
-/
import proofs.«179523_j83038897701149_1_alg».proof.Proof.RefRead
import proofs.«179523_j83038897701149_1_alg».proof.Proof.Spec
import proofs.«179523_j83038897701149_1_alg».proof.Proof.Agg
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S50000x128, .f32⟩ : BufTy).Contents (Elt Ideal)) (x1 x2 : (⟨S640000, .i32⟩ : BufTy).Contents (Elt Ideal))
  (x4 x5 : (⟨S128x128, .f32⟩ : BufTy).Contents (Elt Ideal)) (x6 : (⟨S128, .f32⟩ : BufTy).Contents (Elt Ideal))
  (x7 x8 : (⟨S128x128, .f32⟩ : BufTy).Contents (Elt Ideal)) (x9 : (⟨S128, .f32⟩ : BufTy).Contents (Elt Ideal))
  (x10 x11 : (⟨S128x128, .f32⟩ : BufTy).Contents (Elt Ideal)) (x12 : (⟨S128, .f32⟩ : BufTy).Contents (Elt Ideal))

/-! ## The aggregation of each layer -/

/-- The first layer's aggregate is the mean aggregation of the input features along the edges: the same chain of operations. -/
theorem agg1 : val_main_v22 (F := Ideal) x0 x1 x2 = Cert.Sage.agg (F := Ideal) x0 x1 x2 := rfl

/-- The second layer's aggregate is the mean aggregation of the first layer's result. -/
theorem agg2 : val_main_v53 (F := Ideal) x0 x1 x2 x4 x5 x6
    = Cert.Sage.agg (F := Ideal) (val_main_v30 (F := Ideal) x0 x1 x2 x4 x5 x6) x1 x2 := rfl

/-- The third layer's aggregate is the mean aggregation of the second layer's result. -/
theorem agg3 : val_main_v84 (F := Ideal) x0 x1 x2 x4 x5 x6 x7 x8 x9
    = Cert.Sage.agg (F := Ideal) (val_main_v61 (F := Ideal) x0 x1 x2 x4 x5 x6 x7 x8 x9) x1 x2 := rfl

/-! ## One dense stage at an entry -/

/-- The entry (p, q) of a layer's dense stage, written with the index functions the matrix products and the bias broadcasts are read
    through, is the specification's: the left operand of a product is read at (p, k), the right one at (k, q), the twice-broadcast
    bias at q, and the f32 zero the maximum is taken with is the extended real 0. -/
theorem layer_at (x hn : S50000x128.Idx → EReal) (ws wn : S128x128.Idx → EReal) (b : S128.Idx → EReal)
    (p : Fin 50000) (q : Fin 128) :
    max ((∑ k : Fin 128, x (lidx_main_v23 (ix2 p q) k) * ws (ridx_main_v23 (ix2 p q) k))
          + (∑ k : Fin 128, hn (lidx_main_v23 (ix2 p q) k) * wn (ridx_main_v23 (ix2 p q) k))
          + b (idx_main_v26 (idx_main_v27 (ix2 p q)))) (Ideal.ofBits .f32 0x00000000#32) + x (ix2 p q)
      = Cert.Sage.dense x hn ws wn b (ix2 p q) := by
  have el : ∀ k : Fin 128, lidx_main_v23 (ix2 p q) k = ix2 p k := fun k =>
    funext fun a => Fin.ext (by match a with | ⟨0, _⟩ => rfl | ⟨1, _⟩ => rfl)
  have er : ∀ k : Fin 128, ridx_main_v23 (ix2 p q) k = ix2 k q := fun k =>
    funext fun a => Fin.ext (by match a with | ⟨0, _⟩ => rfl | ⟨1, _⟩ => rfl)
  have eb : idx_main_v26 (idx_main_v27 (ix2 p q)) = ix1 q :=
    funext fun a => Fin.ext (by match a with | ⟨0, _⟩ => rfl)
  rw [Cert.Sage.dense_ix2, Ideal.ofBits_zero_f32, eb]
  unfold Cert.Sage.denseAt
  simp only [el, er]

/-! ## The three layers -/

/-- The first layer's result is the dense stage of the input features and their aggregate, with the first layer's weights and bias. -/
theorem layer1 : val_main_v30 (F := Ideal) x0 x1 x2 x4 x5 x6
    = Cert.Sage.dense x0 (val_main_v22 (F := Ideal) x0 x1 x2) x4 x5 x6 := by
  funext i
  obtain ⟨p, q, rfl⟩ : ∃ (p : Fin 50000) (q : Fin 128), i = ix2 p q := ⟨i 0, i 1, eq_ix2 i⟩
  rw [val_main_v30_apply, val_main_v29_apply, val_main_v28_apply, val_main_v25_apply, val_main_v23_apply, val_main_v24_apply,
    val_main_v27_apply, val_main_v26_apply, val_main_call1_v0_apply, val_main_call1_cst_apply]
  exact layer_at x0 (val_main_v22 (F := Ideal) x0 x1 x2) x4 x5 x6 p q

/-- The second layer's result is the dense stage of the first layer's result and its aggregate, with the second layer's weights and
    bias. -/
theorem layer2 : val_main_v61 (F := Ideal) x0 x1 x2 x4 x5 x6 x7 x8 x9
    = Cert.Sage.dense (val_main_v30 (F := Ideal) x0 x1 x2 x4 x5 x6) (val_main_v53 (F := Ideal) x0 x1 x2 x4 x5 x6) x7 x8 x9 := by
  funext i
  obtain ⟨p, q, rfl⟩ : ∃ (p : Fin 50000) (q : Fin 128), i = ix2 p q := ⟨i 0, i 1, eq_ix2 i⟩
  rw [val_main_v61_apply, val_main_v60_apply, val_main_v59_apply, val_main_v56_apply, val_main_v54_apply, val_main_v55_apply,
    val_main_v58_apply, val_main_v57_apply, val_main_call3_v0_apply, val_main_call3_cst_apply]
  exact layer_at (val_main_v30 (F := Ideal) x0 x1 x2 x4 x5 x6) (val_main_v53 (F := Ideal) x0 x1 x2 x4 x5 x6) x7 x8 x9 p q

/-- The third layer's result is the dense stage of the second layer's result and its aggregate, with the third layer's weights and
    bias. -/
theorem layer3 : val_main_v92 (F := Ideal) x0 x1 x2 x4 x5 x6 x7 x8 x9 x10 x11 x12
    = Cert.Sage.dense (val_main_v61 (F := Ideal) x0 x1 x2 x4 x5 x6 x7 x8 x9)
        (val_main_v84 (F := Ideal) x0 x1 x2 x4 x5 x6 x7 x8 x9) x10 x11 x12 := by
  funext i
  obtain ⟨p, q, rfl⟩ : ∃ (p : Fin 50000) (q : Fin 128), i = ix2 p q := ⟨i 0, i 1, eq_ix2 i⟩
  rw [val_main_v92_apply, val_main_v91_apply, val_main_v90_apply, val_main_v87_apply, val_main_v85_apply, val_main_v86_apply,
    val_main_v89_apply, val_main_v88_apply, val_main_call5_v0_apply, val_main_call5_cst_apply]
  exact layer_at (val_main_v61 (F := Ideal) x0 x1 x2 x4 x5 x6 x7 x8 x9) (val_main_v84 (F := Ideal) x0 x1 x2 x4 x5 x6 x7 x8 x9)
    x10 x11 x12 p q

/-- The last stage as the network: three dense stages, each on the one before and on the mean aggregation of the one before. -/
theorem net_eq : val_main_v92 (F := Ideal) x0 x1 x2 x4 x5 x6 x7 x8 x9 x10 x11 x12
    = Cert.Sage.net (fun x => Cert.Sage.agg (F := Ideal) x x1 x2) x0 x4 x5 x6 x7 x8 x9 x10 x11 x12 := by
  rw [layer3, agg3, layer2, agg2, layer1, agg1]
  rfl

/-! ## The result -/

/-- The reference program's result is the network of its arguments: the node features, the two edge lists, and the three layers'
    weights and biases. -/
theorem result_eq (m : (ℓ : Loc nD τ sig) → Buf (Elt Ideal) ℓ) (c : Dev nD) :
    Cert.ReferenceIdeal.Value.res_main_v92 (F := Ideal) m c
      = Cert.Sage.net (fun x => Cert.Sage.agg (F := Ideal) x (m ((c.tc : Thread nD τ).loc main_arg1))
            (m ((c.tc : Thread nD τ).loc main_arg2)))
          (m ((c.tc : Thread nD τ).loc main_arg0))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  rw [Read.val_main_v92_eq]
  exact net_eq _ _ _ _ _ _ _ _ _ _ _ _

end Cert.ReferenceIdeal.RefValue

end
-- ==== Proof.lean ====
/-
  Three stacked graph-convolution layers with mean aggregation and a residual: the Pallas program against the plain jnp one.

  Both programs compute, three times over, h := relu (x · W_self + agg x · W_neigh + b) + x, where agg x is the mean over each
  node's in-neighbours of the rows of x (a gather along the edges, a segment sum, a division by the clamped in-degree, zero where
  the degree is zero). The jnp program does everything with host operations. The Pallas program does the aggregation with the same
  host operations and the dense stage in a kernel launched over ten row blocks, with the weights narrowed to bfloat16 on the way in:
  on the extended reals the narrowing is the identity, a matrix product into a zero accumulator is the sum over the contraction
  coordinate on both sides, and the grouping (x W_self + hn W_neigh) + b, the maximum with 0 and the residual are the same. So both
  results are the network `Cert.Sage.net` of the arguments (Proof/Spec.lean), entry by entry, with the aggregation carried as one
  function (Proof/Agg.lean) that is never opened; no law that needs finite inputs is used.

  Proof/KValue.lean reads the kernel program's result off its run (the launches' result arrays by Proof/Region0–2.lean over the
  body's entry Proof/Payload.lean, the host stretches by Proof/Stretch0–2.lean); Proof/RefValue.lean reads the jnp program's result
  off its run stage by stage. The three frames are the programs' runs with the results dropped; the idealization rewrote no
  operation, so its claim is trivial.
-/
import proofs.«179523_j83038897701149_1_alg».proof.Defs
import proofs.«179523_j83038897701149_1_alg».proof.Proof.Gen.Kernel
import proofs.«179523_j83038897701149_1_alg».proof.Proof.Gen.Kernel.Frame
import proofs.«179523_j83038897701149_1_alg».proof.Proof.Gen.KernelIdeal
import proofs.«179523_j83038897701149_1_alg».proof.Proof.Gen.KernelIdeal.Frame
import proofs.«179523_j83038897701149_1_alg».proof.Proof.Gen.ReferenceIdeal
import proofs.«179523_j83038897701149_1_alg».proof.Proof.Gen.Pre_finite_inputs
import proofs.«179523_j83038897701149_1_alg».proof.Proof.KRun
import proofs.«179523_j83038897701149_1_alg».proof.Proof.KValue
import proofs.«179523_j83038897701149_1_alg».proof.Proof.RefRun
import proofs.«179523_j83038897701149_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The jnp program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at the network of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, _, a4, a5, a6, a7, a8, a9, a10, a11, a12⟩ := hagree c
  rw [Cert.ReferenceIdeal.RefValue.result_eq, a0, a1, a2, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
